-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1 : Shape := ⟨3, ![128, 1024, 1]⟩
abbrev S1024x512 : Shape := ⟨2, ![1024, 512]⟩
abbrev S_ : Shape := ⟨0, ![]⟩

class Facts : Prop where
  bcast_S_S128x1024x1 : S_.BroadcastsInDim S128x1024x1 (![] : Fin 0 → Fin S128x1024x1.rank)
  reducesTo_S128x1024x1_S_d0_1_2 : S128x1024x1.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S128x1024x1 .f32) (main_arg1 : FVec F S1024x512 .f32) (main_arg2 : FVec F S1024x512 .f32) : IVec S_ 1 :=
  let main_v0 : FVec F S128x1024x1 .f32 := Host.absf main_arg0
  let main_cst : FVec F S_ .f32 := constant S_ .f32 0x7F800000#32
  let main_v1 : FVec F S128x1024x1 .f32 := broadcastInDim S128x1024x1 ![] bcast_S_S128x1024x1 main_cst
  let main_v2 : IVec S128x1024x1 1 := cmpf .olt main_v0 main_v1
  let main_c : IVec S_ 1 := constantI S_ 1 1#1
  let main_v3 : IVec S_ 1 := (fun x v => Host.reduce IntOp.andi x v reducesTo_S128x1024x1_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S128x1024x1 : Shape := ⟨3, ![128, 1024, 1]⟩
abbrev S1024x512 : Shape := ⟨2, ![1024, 512]⟩
abbrev S128x1024x512 : Shape := ⟨3, ![128, 1024, 512]⟩
abbrev S32x128x1 : Shape := ⟨3, ![32, 128, 1]⟩
abbrev S128x512 : Shape := ⟨2, ![128, 512]⟩
abbrev S32x128x512 : Shape := ⟨3, ![32, 128, 512]⟩
abbrev S1x128x512 : Shape := ⟨3, ![1, 128, 512]⟩

abbrev nBuf : Space → Nat
  | .hbm => 4
  | .vmem => 8
  | .smem => 0
  | _ => 0

abbrev bufTy : (tb : Table) → Fin (tcTables nBuf tb) → BufTy
  | .hbm, ⟨0, _⟩ => ⟨S128x1024x1, .f32⟩
  | .hbm, ⟨1, _⟩ => ⟨S1024x512, .f32⟩
  | .hbm, ⟨2, _⟩ => ⟨S1024x512, .f32⟩
  | .hbm, ⟨3, _⟩ => ⟨S128x1024x512, .f32⟩
  | .local _ .vmem, ⟨0, _⟩ => ⟨S32x128x1, .f32⟩
  | .local _ .vmem, ⟨1, _⟩ => ⟨S32x128x1, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S32x128x512, .f32⟩
  | .local _ .vmem, ⟨7, _⟩ => ⟨S32x128x512, .f32⟩
  | _, _ => ⟨S128x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S32x128x1_S32x128x1_0_0_0 : ∀ a, (![0, 0, 0] : Fin 3 → Nat) a + S32x128x1.size a ≤ S32x128x1.size a
  h_S32x128x1 : 0 < S32x128x1.numel
  inb_S128x512_S128x512_0_0 : ∀ a, (![0, 0] : Fin 2 → Nat) a + S128x512.size a ≤ S128x512.size a
  h_S128x512 : 0 < S128x512.numel
  shapeCasts_S128x512_S1x128x512 : S128x512.ShapeCasts S1x128x512
  broadcasts_S32x128x1_S32x128x512 : S32x128x1.Broadcasts S32x128x512
  broadcasts_S1x128x512_S32x128x512 : S1x128x512.Broadcasts S32x128x512
  inb_S32x128x512_S32x128x512_0_0_0 : ∀ a, (![0, 0, 0] : Fin 3 → Nat) a + S32x128x512.size a ≤ S32x128x512.size a
  h_S32x128x512 : 0 < S32x128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x1.size a ≤ S128x1024x1.size a
  hwx0_0 : ∀ i : grid0.Coords, EltTy.bits .f32 = 32 ∨ (Rect.block (s := S128x1024x1) S32x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S1024x512.size a
  hwx0_2 : ∀ i : grid0.Coords, EltTy.bits .f32 = 32 ∨ (Rect.block (s := S1024x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x512.size a ≤ S128x1024x512.size a
  hwx0_3 : ∀ i : grid0.Coords, EltTy.bits .f32 = 32 ∨ (Rect.block (s := S128x1024x512) S32x128x512.size (cc0_transform_3 i) (hinb0_3 i)).WholeWords (EltTy.packing .f32)

variable [Facts₀]

abbrev win0_0 : Pipeline.Window sig grid0 :=
  Pipeline.Window.ofSpec (Memref.whole main_arg0) S32x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024x1 : Shape := ⟨3, ![128, 1024, 1]⟩
abbrev S1024x512 : Shape := ⟨2, ![1024, 512]⟩
abbrev S1x1024x512 : Shape := ⟨3, ![1, 1024, 512]⟩
abbrev S128x1024x512 : Shape := ⟨3, ![128, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S128x1024x1, .f32⟩
  | .hbm, ⟨1, _⟩ => ⟨S1024x512, .f32⟩
  | .hbm, ⟨2, _⟩ => ⟨S1024x512, .f32⟩
  | .hbm, ⟨3, _⟩ => ⟨S1x1024x512, .f32⟩
  | .hbm, ⟨4, _⟩ => ⟨S128x1024x512, .f32⟩
  | .hbm, ⟨5, _⟩ => ⟨S128x1024x512, .f32⟩
  | .hbm, ⟨6, _⟩ => ⟨S128x1024x512, .f32⟩
  | .hbm, ⟨7, _⟩ => ⟨S1x1024x512, .f32⟩
  | .hbm, ⟨8, _⟩ => ⟨S128x1024x512, .f32⟩
  | .hbm, ⟨9, _⟩ => ⟨S128x1024x512, .f32⟩
  | _, _ => ⟨S128x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S1024x512_S1x1024x512_1_2 : S1024x512.BroadcastsInDim S1x1024x512 (![1, 2] : Fin 2 → Fin S1x1024x512.rank)
  bcast_S128x1024x1_S128x1024x512_0_1_2 : S128x1024x1.BroadcastsInDim S128x1024x512 (![0, 1, 2] : Fin 3 → Fin S128x1024x512.rank)
  bcast_S1x1024x512_S128x1024x512_0_1_2 : S1x1024x512.BroadcastsInDim S128x1024x512 (![0, 1, 2] : Fin 3 → Fin S128x1024x512.rank)

variable [Facts₀]

class Facts : Prop extends Facts₀ where

variable [Facts]
-- ==== Proof.FeatureAffine.lean ====
/-
  The function both programs compute: every one of the 1024 features carries its own scalar-to-vector affine map,
  and the result at (batch r, feature n, component d) is  x[r, n, 0] · W[n, d] + b[n, d].
  The input's last axis has extent one, so the scalar is read at coordinate 0 there; the weight row and the bias
  row are those of feature n. Stated at any float instance: one product and one sum per element, nothing else.
-/
import Idealize.ShloMosaic.PureOps.Ideal
import Idealize.ShloMosaic.Lib.ValueIdx

noncomputable section

open Idealize.ShloMosaic Idealize.ShloMosaic.TcCoe Idealize.ShloMosaic.ValueIdx

namespace Cert.FeatureAffine

variable {F : FTy → Type} [FloatOps F]

/-- Where element `i` of the result reads the input: same batch row and feature, the unit axis at 0. -/
abbrev scalarAt (i : (⟨3, ![128, 1024, 512]⟩ : Shape).Idx) : (⟨3, ![128, 1024, 1]⟩ : Shape).Idx :=
  ix3 (i 0) (i 1) (0 : Fin 1)

/-- Where element `i` of the result reads the weight and the bias: its feature's row, its own component. -/
abbrev rowAt (i : (⟨3, ![128, 1024, 512]⟩ : Shape).Idx) : (⟨2, ![1024, 512]⟩ : Shape).Idx :=
  ix2 (i 1) (i 2)

/-- The per-feature affine map, element by element: `x[r, n, 0] · W[n, d] + b[n, d]`. -/
def scaleShift (x : (⟨3, ![128, 1024, 1]⟩ : Shape).Idx → Elt F .f32)
    (W b : (⟨2, ![1024, 512]⟩ : Shape).Idx → Elt F .f32) :
    (⟨3, ![128, 1024, 512]⟩ : Shape).Idx → Elt F .f32 :=
  fun i => FloatOps.addf (FloatOps.mulf (x (scalarAt i)) (W (rowAt i))) (b (rowAt i))

theorem scaleShift_apply (x : (⟨3, ![128, 1024, 1]⟩ : Shape).Idx → Elt F .f32)
    (W b : (⟨2, ![1024, 512]⟩ : Shape).Idx → Elt F .f32) (i : (⟨3, ![128, 1024, 512]⟩ : Shape).Idx) :
    scaleShift x W b i = FloatOps.addf (FloatOps.mulf (x (scalarAt i)) (W (rowAt i))) (b (rowAt i)) := rfl

end Cert.FeatureAffine

end
-- ==== Proof.HostAffine.lean ====
/-
  The host program is the per-feature affine map. It broadcasts the weight table and the bias table along a new
  leading batch axis and the input along its unit last axis, multiplies and adds: read at an element (r, n, d),
  each broadcast picks the operand's entry at the coordinates it keeps — the input at (r, n, 0), the two tables
  at (n, d) — so the sum read there is x[r, n, 0] · W[n, d] + b[n, d].
-/
import proofs.«182049_j27986006901450_1_alg».proof.Proof.Gen.ReferenceIdeal.Read
import proofs.«182049_j27986006901450_1_alg».proof.Proof.FeatureAffine

noncomputable section

open Idealize.ShloMosaic Idealize.ShloMosaic.TcCoe Idealize.ShloMosaic.ValueIdx

namespace Cert.ReferenceIdeal.HostAffine

open Cert.ReferenceIdeal Cert.ReferenceIdeal.Read Cert.FeatureAffine

variable {F : FTy → Type} [FloatOps F]

/-- The input's broadcast keeps batch row and feature and reads the unit axis at 0. -/
theorem input_index (i : S128x1024x512.Idx) : idx_main_v1 i = scalarAt i :=
  funext fun a => Fin.ext (by match a with | ⟨0, _⟩ => rfl | ⟨1, _⟩ => rfl | ⟨2, _⟩ => rfl)

/-- The weight's two broadcasts together keep feature and component. -/
theorem weight_index (i : S128x1024x512.Idx) : idx_main_v0 (idx_main_v2 i) = rowAt i :=
  funext fun a => Fin.ext (by match a with | ⟨0, _⟩ => rfl | ⟨1, _⟩ => rfl)

/-- So do the bias's. -/
theorem bias_index (i : S128x1024x512.Idx) : idx_main_v4 (idx_main_v5 i) = rowAt i :=
  funext fun a => Fin.ext (by match a with | ⟨0, _⟩ => rfl | ⟨1, _⟩ => rfl)

/-- The host's last stage, as a function of the three arguments, is the per-feature affine map. -/
theorem result_eq (x0 : (⟨S128x1024x1, .f32⟩ : BufTy).Contents (Elt F)) (x1 x2 : (⟨S1024x512, .f32⟩ : BufTy).Contents (Elt F)) :
    val_main_v6 (F := F) x0 x1 x2 = scaleShift x0 x1 x2 := by
  funext i
  rw [val_main_v6_apply, val_main_v3_apply, val_main_v1_apply, val_main_v2_apply, val_main_v0_apply,
    val_main_v5_apply, val_main_v4_apply, input_index, weight_index, bias_index]
  rfl

end Cert.ReferenceIdeal.HostAffine

end
-- ==== Proof.Tiles.lean ====
/-
  The kernel's result array is the per-feature affine map of its arguments.
  The grid is 4 × 8: point (p, q) works on batch rows 32p … 32p + 31 and features 128q … 128q + 127. Its input block
  is the [32, 128, 1] piece of x at block index (p, q, 0), its weight and bias blocks the [128, 512] pieces at (q, 0),
  and it writes back the [32, 128, 512] piece of the result at (p, q, 0). Inside the body the element (a, r, d) of the
  output block is  xblock[a, r, 0] · Wblock[r, d] + bblock[r, d]. Reading each block where it lies in its array — a
  block's coordinate is block index × block extent + the coordinate inside — turns that into
  x[32p + a, 128q + r, 0] · W[128q + r, d] + b[128q + r, d], which is the affine map at the array index of that element.
  The 32 output blocks tile the [128, 1024, 512] result, so the whole array ends at the affine map.
-/
import proofs.«182049_j27986006901450_1_alg».proof.Proof.Gen.KernelIdeal.Value
import proofs.«182049_j27986006901450_1_alg».proof.Proof.FeatureAffine
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Value Cert.FeatureAffine

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- What the body leaves in the output block, element by element: the input block's scalar of that batch row and
    feature, times the weight block's entry, plus the bias block's entry. -/
theorem body_apply (x0 : Vec F S32x128x1 .f32) (x1 x2 : Vec F S128x512 .f32) (y : S32x128x512.Idx) :
    out0_3 x0 x1 x2 y = FloatOps.addf (FloatOps.mulf (x0 (ix3_0 y)) (x1 (ix3_1 y))) (x2 (ix3_2 y)) := by
  unfold out0_3
  simp only [View.ld_unit_zero (S := S32x128x1) origin3, View.ld_unit_zero (S := S128x512) origin2]
  exact canon3_eq x0 x1 x2 y

/-- The four windows' block indices at a grid point: the input's and the output's agree on batch and feature axes,
    the tables' row block is the output's feature block, every other block index is 0, and the output's stay below
    the 4 × 8 blocks of the result. Decided over the 32 points. -/
theorem block_indices : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = win0_3.index t (1 : Fin 3)
    ∧ win0_1.index t (1 : Fin 2) = 0
    ∧ win0_2.index t (0 : Fin 2) = win0_3.index t (1 : Fin 3)
    ∧ win0_2.index t (1 : Fin 2) = 0
    ∧ win0_3.index t (2 : Fin 3) = 0 :=
  (by decide +kernel : ∀ t : Fin grid0.N, _)

/-- Every one of the 4 × 8 blocks of the result is some point's. -/
theorem block_onto : ∀ (p : Fin 4) (q : Fin 8), ∃ t : Fin cfg0.N, win0_3.index t = ![p.val, q.val, 0] :=
  (by decide +kernel : ∀ (p : Fin 4) (q : Fin 8), ∃ t : Fin grid0.N, win0_3.index t = ![p.val, q.val, 0])

/-- What point `t` writes back is block `t` of the affine map of the argument arrays. -/
theorem flushed_eq (c : Dev nD) (t : Fin cfg0.N) :
    (dats m 0 c).flushed 3 t
      = ((cfg0.win 3).blk t).view.read (Elt F) (scaleShift (V m c main_arg0) (V m c main_arg1) (V m c main_arg2)) := by
  rw [flushed3]
  obtain ⟨e0, e1, e2, e3, e4, e5, e6, e7⟩ := block_indices t
  funext j
  refine (body_apply (iblk m c 0 t) (iblk m c 1 t) (iblk m c 2 t) j).trans ?_
  show FloatOps.addf (FloatOps.mulf (V m c main_arg0 (((cfg0.win 0).blk t).view.emb (ix3_0 j)))
        (V m c main_arg1 (((cfg0.win 1).blk t).view.emb (ix3_1 j)))) (V m c main_arg2 (((cfg0.win 2).blk t).view.emb (ix3_2 j)))
      = FloatOps.addf (FloatOps.mulf (V m c main_arg0 (scalarAt (((cfg0.win 3).blk t).view.emb j)))
        (V m c main_arg1 (rowAt (((cfg0.win 3).blk t).view.emb j)))) (V m c main_arg2 (rowAt (((cfg0.win 3).blk t).view.emb j)))
  have hx : ((cfg0.win 0).blk t).view.emb (ix3_0 j) = scalarAt (((cfg0.win 3).blk t).view.emb j) := by
    funext a; apply Fin.ext
    match a with
    | ⟨0, _⟩ => show win0_0.index t (0 : Fin 3) * 32 + 1 * (j 0).val = win0_3.index t (0 : Fin 3) * 32 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 1 + 1 * 0 = 0; omega
  have hw : ((cfg0.win 1).blk t).view.emb (ix3_1 j) = rowAt (((cfg0.win 3).blk t).view.emb j) := by
    funext a; apply Fin.ext
    match a with
    | ⟨0, _⟩ => show win0_1.index t (0 : Fin 2) * 128 + 1 * (j 1).val = win0_3.index t (1 : Fin 3) * 128 + 1 * (j 1).val; omega
    | ⟨1, _⟩ => show win0_1.index t (1 : Fin 2) * 512 + 1 * (j 2).val = win0_3.index t (2 : Fin 3) * 512 + 1 * (j 2).val; omega
  have hb : ((cfg0.win 2).blk t).view.emb (ix3_2 j) = rowAt (((cfg0.win 3).blk t).view.emb j) := by
    funext a; apply Fin.ext
    match a with
    | ⟨0, _⟩ => show win0_2.index t (0 : Fin 2) * 128 + 1 * (j 1).val = win0_3.index t (1 : Fin 3) * 128 + 1 * (j 1).val; omega
    | ⟨1, _⟩ => show win0_2.index t (1 : Fin 2) * 512 + 1 * (j 2).val = win0_3.index t (2 : Fin 3) * 512 + 1 * (j 2).val; omega
  rw [hx, hw, hb]

/-- An index of the result lies in point `t`'s block iff each coordinate lies in the block's range on its axis. -/
theorem mem_block (t : Fin cfg0.N) (i : S128x1024x512.Idx) :
    i ∈ ((cfg0.win 3).blk t).view.set ↔ ∀ a : Fin 3, win0_3.index t a * S32x128x512.size a ≤ (i a).val
      ∧ (i a).val < win0_3.index t a * S32x128x512.size a + S32x128x512.size a := by
  show i ∈ ((View.whole main_v0).slice (win0_3.rect t)).set ↔ _
  rw [View.set_slice_whole, Rect.mem_set_unit]
  exact Iff.rfl

/-- The blocks tile the result: element (r, n, d) lies in the block of the point with block index (r / 32, n / 128, 0). -/
theorem covered (i : S128x1024x512.Idx) :
    ∃ t : Fin cfg0.N, (cfg0.win 3).flush t = true ∧ i ∈ ((cfg0.win 3).blk t).view.set := by
  have hi0 : (i 0).val < 128 := (i 0).isLt
  have hi1 : (i 1).val < 1024 := (i 1).isLt
  have hi2 : (i 2).val < 512 := (i 2).isLt
  obtain ⟨t, ht⟩ := block_onto ⟨(i 0).val / 32, by omega⟩ ⟨(i 1).val / 128, by omega⟩
  have q0 : win0_3.index t (0 : Fin 3) = (i 0).val / 32 := congrFun ht 0
  have q1 : win0_3.index t (1 : Fin 3) = (i 1).val / 128 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

/-- The result array after the run is the affine map of the arguments as launched. -/
theorem final (c : Dev nD) : (dats m 0 c).arrAt 3 cfg0.N
    = scaleShift (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result array at the affine map of the arguments, the arguments unchanged. -/
theorem run : θ_run defs (onTc (τ := τ) (main (F := F))) ⟨m, fun _ => 0, ρ⟩ fun r => ∀ c : Dev nD,
      r.2.mem ((c : Thread nD τ).loc main_v0)
        = scaleShift (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Tiles

end
-- ==== Proof.lean ====
/-
  The certificate of the per-feature affine kernel: out[r, n, d] = x[r, n, 0] · W[n, d] + b[n, d] over
  x : [128, 1024, 1], W, b : [1024, 512].
  The kernel tiles the result into 4 × 8 blocks of [32, 128, 512] and computes each from the matching pieces of x, W
  and b; the host program broadcasts the three arguments to the result's shape, multiplies and adds. Both are the same
  element-by-element function of the arguments (Proof/FeatureAffine.lean): one product and one sum per element, the
  same operands in the same order, so the two results agree at every float instance and no law of the extended reals —
  and no finiteness of the inputs — is needed. Proof/Tiles.lean reads the kernel's result array as that function,
  Proof/HostAffine.lean the host's. The ideal pass rewrote nothing, so there is nothing to preserve.
-/
import proofs.«182049_j27986006901450_1_alg».proof.Defs
import proofs.«182049_j27986006901450_1_alg».proof.Proof.Gen.Kernel
import proofs.«182049_j27986006901450_1_alg».proof.Proof.Gen.Kernel.Skeleton
import proofs.«182049_j27986006901450_1_alg».proof.Proof.Gen.Kernel.Launch
import proofs.«182049_j27986006901450_1_alg».proof.Proof.Gen.Kernel.Points
import proofs.«182049_j27986006901450_1_alg».proof.Proof.Gen.Kernel.Frame
import proofs.«182049_j27986006901450_1_alg».proof.Proof.Gen.KernelIdeal
import proofs.«182049_j27986006901450_1_alg».proof.Proof.Gen.KernelIdeal.Skeleton
import proofs.«182049_j27986006901450_1_alg».proof.Proof.Gen.KernelIdeal.Launch
import proofs.«182049_j27986006901450_1_alg».proof.Proof.Gen.KernelIdeal.Points
import proofs.«182049_j27986006901450_1_alg».proof.Proof.Gen.KernelIdeal.Frame
import proofs.«182049_j27986006901450_1_alg».proof.Proof.Gen.ReferenceIdeal
import proofs.«182049_j27986006901450_1_alg».proof.Proof.Gen.Pre_finite_inputs
import proofs.«182049_j27986006901450_1_alg».proof.Proof.Gen.KernelIdeal.Value
import proofs.«182049_j27986006901450_1_alg».proof.Proof.Gen.ReferenceIdeal.Run
import proofs.«182049_j27986006901450_1_alg».proof.Proof.Gen.ReferenceIdeal.Read
import proofs.«182049_j27986006901450_1_alg».proof.Proof.FeatureAffine
import proofs.«182049_j27986006901450_1_alg».proof.Proof.HostAffine
import proofs.«182049_j27986006901450_1_alg».proof.Proof.Tiles
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The host program runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the host's both end at the per-feature affine map of
    arguments that agree, so they are equal element by element. -/
theorem algebraic : Cert.algebraic_KernelIdeal_ReferenceIdeal := by
  intro m ρ m' ρ' _ hagree
  refine ⟨_, Cert.KernelIdeal.Tiles.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans (Cert.ReferenceIdeal.HostAffine.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
